-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x32768 : Shape := ⟨2, ![4096, 32768]⟩
abbrev S128x256 : Shape := ⟨2, ![128, 256]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x32768 : S_.BroadcastsInDim S4096x32768 (![] : Fin 0 → Fin S4096x32768.rank)
  reducesTo_S4096x32768_S_d0_1 : S4096x32768.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4096x128 .f32) (main_arg1 : FVec F S4096x32768 .f32) (main_arg2 : FVec F S4096x32768 .f32) (main_arg3 : FVec F S128x256 .f32) (main_arg4 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x32768 .f32 := Host.absf main_arg1
  let main_cst_0 : FVec F S_ .f32 := constant S_ .f32 0x7F800000#32
  let main_v5 : FVec F S4096x32768 .f32 := broadcastInDim S4096x32768 ![] bcast_S_S4096x32768 main_cst_0
  let main_v6 : IVec S4096x32768 1 := cmpf .olt main_v4 main_v5
  let main_c_1 : IVec S_ 1 := constantI S_ 1 1#1
  let main_v7 : IVec S_ 1 := (fun x v => Host.reduce IntOp.andi x v reducesTo_S4096x32768_S_d0_1 h_S_) main_v6 main_c_1
  let main_v8 : IVec S_ 1 := andi main_v3 main_v7
  let main_v9 : FVec F S4096x32768 .f32 := Host.absf main_arg2
  let main_cst_2 : FVec F S_ .f32 := constant S_ .f32 0x7F800000#32
  let main_v10 : FVec F S4096x32768 .f32 := broadcastInDim S4096x32768 ![] bcast_S_S4096x32768 main_cst_2
  let main_v11 : IVec S4096x32768 1 := cmpf .olt main_v9 main_v10
  let main_c_3 : IVec S_ 1 := constantI S_ 1 1#1
  let main_v12 : IVec S_ 1 := (fun x v => Host.reduce IntOp.andi x v reducesTo_S4096x32768_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S4096x128 : Shape := ⟨2, ![4096, 128]⟩
abbrev S4096x32768 : Shape := ⟨2, ![4096, 32768]⟩
abbrev S128x256 : Shape := ⟨2, ![128, 256]⟩
abbrev S128 : Shape := ⟨1, ![128]⟩
abbrev S1x128 : Shape := ⟨2, ![1, 128]⟩
abbrev S4096x256 : Shape := ⟨2, ![4096, 256]⟩
abbrev S256x128 : Shape := ⟨2, ![256, 128]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x32768, .f32⟩
  | .hbm, ⟨2, _⟩ => ⟨S4096x32768, .f32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S4096x128, .f32⟩
  | .local _ .vmem, ⟨0, _⟩ => ⟨S4096x128, .f32⟩
  | .local _ .vmem, ⟨1, _⟩ => ⟨S128x256, .f32⟩
  | .local _ .vmem, ⟨2, _⟩ => ⟨S1x128, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x128, .f32⟩
  | .local _ .vmem, ⟨8, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v29 : BitVec 1 := Scalar.cmpi .eq arg0 c127_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S128x256_S128x256_0_0 : ∀ a, (![0, 0] : Fin 2 → Nat) a + S128x256.size a ≤ S128x256.size a
  h_S128x256 : 0 < S128x256.numel
  concatenates_S256x128_S256x128_S256x256_d1 : Shape.Concatenates [S256x128, S256x128] S256x256 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S4096x256_S4096x128_S256x128_0_0_1_1_n_n_wf : DotDims.WF S4096x256 S4096x128 S256x128 [0] [0] [1] [1] [] []
  dot_S256x256_S128x256_S256x128_1_1_0_0_n_n_wf : DotDims.WF S256x256 S128x256 S256x128 [1] [1] [0] [0] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x32768.size a
  hwx0_3 : ∀ i : grid0.Coords, EltTy.bits .f32 = 32 ∨ (Rect.block (s := S4096x32768) S4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x32768.size a
  hwx0_4 : ∀ i : grid0.Coords, EltTy.bits .f32 = 32 ∨ (Rect.block (s := S4096x32768) S4096x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .f32 = 32 ∨ (Rect.block (s := S4096x128) S4096x128.size (cc0_transform_5 i) (hinb0_5 i)).WholeWords (EltTy.packing .f32)

variable [Facts₀]

def dot_S4096x256_S4096x128_S256x128_0_0_1_1_n_n : DotDims S4096x256 S4096x128 S256x128 where
  lhsContracting := [0]
  rhsContracting := [0]
  lhsNonContracting := [1]
  rhsNonContracting := [1]
  lhsBatch := []
  rhsBatch := []
  wf := dot_S4096x256_S4096x128_S256x128_0_0_1_1_n_n_wf
def dot_S256x256_S128x256_S256x128_1_1_0_0_n_n : DotDims S256x256 S128x256 S256x128 where
  lhsContracting := [1]
  rhsContracting := [1]
  lhsNonContracting := [0]
  rhsNonContracting := [0]
  lhsBatch := []
  rhsBatch := []
  wf := dot_S256x256_S128x256_S256x128_1_1_0_0_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x32768 : Shape := ⟨2, ![4096, 32768]⟩
abbrev S128x256 : Shape := ⟨2, ![128, 256]⟩
abbrev S128 : Shape := ⟨1, ![128]⟩
abbrev S32768x4096 : Shape := ⟨2, ![32768, 4096]⟩
abbrev S32768x128 : Shape := ⟨2, ![32768, 128]⟩
abbrev S32768x256 : Shape := ⟨2, ![32768, 256]⟩
abbrev S256x128 : Shape := ⟨2, ![256, 128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x32768, .f32⟩
  | .hbm, ⟨2, _⟩ => ⟨S4096x32768, .f32⟩
  | .hbm, ⟨3, _⟩ => ⟨S128x256, .f32⟩
  | .hbm, ⟨4, _⟩ => ⟨S128, .f32⟩
  | .hbm, ⟨5, _⟩ => ⟨S32768x4096, .f32⟩
  | .hbm, ⟨6, _⟩ => ⟨S32768x128, .f32⟩
  | .hbm, ⟨7, _⟩ => ⟨S32768x4096, .f32⟩
  | .hbm, ⟨8, _⟩ => ⟨S32768x128, .f32⟩
  | .hbm, ⟨9, _⟩ => ⟨S32768x256, .f32⟩
  | .hbm, ⟨10, _⟩ => ⟨S256x128, .f32⟩
  | .hbm, ⟨11, _⟩ => ⟨S32768x128, .f32⟩
  | .hbm, ⟨12, _⟩ => ⟨S1x128, .f32⟩
  | .hbm, ⟨13, _⟩ => ⟨S32768x128, .f32⟩
  | .hbm, ⟨14, _⟩ => ⟨S32768x128, .f32⟩
  | .hbm, ⟨15, _⟩ => ⟨S_, .f32⟩
  | .hbm, ⟨16, _⟩ => ⟨S32768x128, .f32⟩
  | .hbm, ⟨17, _⟩ => ⟨S32768x128, .f32⟩
  | .hbm, ⟨18, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  transposes_S4096x32768_S32768x4096_1_0 : S4096x32768.Transposes [1, 0] S32768x4096
  concatenates_S32768x128_S32768x128_S32768x256_d1 : Shape.Concatenates [S32768x128, S32768x128] S32768x256 1
  transposes_S128x256_S256x128_1_0 : S128x256.Transposes [1, 0] S256x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x4096_S4096x128_S32768x128_1_0_0_1_n_n_wf : DotDims.WF S32768x4096 S4096x128 S32768x128 [1] [0] [0] [1] [] []
  dot_S32768x256_S256x128_S32768x128_1_0_0_1_n_n_wf : DotDims.WF S32768x256 S256x128 S32768x128 [1] [0] [0] [1] [] []
  dot_S4096x32768_S32768x128_S4096x128_1_0_0_1_n_n_wf : DotDims.WF S4096x32768 S32768x128 S4096x128 [1] [0] [0] [1] [] []

variable [Facts₀]

def dot_S32768x4096_S4096x128_S32768x128_1_0_0_1_n_n : DotDims S32768x4096 S4096x128 S32768x128 where
  lhsContracting := [1]
  rhsContracting := [0]
  lhsNonContracting := [0]
  rhsNonContracting := [1]
  lhsBatch := []
  rhsBatch := []
  wf := dot_S32768x4096_S4096x128_S32768x128_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S4096x32768_S32768x128_S4096x128_1_0_0_1_n_n : DotDims S4096x32768 S32768x128 S4096x128 where
  lhsContracting := [1]
  rhsContracting := [0]
  lhsNonContracting := [0]
  rhsNonContracting := [1]
  lhsBatch := []
  rhsBatch := []
  wf := dot_S4096x32768_S32768x128_S4096x128_1_0_0_1_n_n_wf

class Facts : Prop extends Facts₀ where

variable [Facts]
-- ==== Proof.Pieces.lean ====
/-
  What one grid point leaves behind, as values.

  The body keeps its running sum in a scratch array that survives from one grid point to the next. At every point it
  loads the node features, the two incidence tiles, the weights, the bias row and the scratch, and stores back into
  the scratch ONE whole array: the point's update `k0_pay2` of those six loads. At the first point the scratch is
  first overwritten with the zero array `k0_pay1`, so the update is applied to zero; at the last point the scratch,
  after its update, is also copied whole into the output block. Each lemma below reads the written pieces back
  as that single value.
-/
import proofs.«112535_j58995670778248_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The offset of every whole-array access of the body. -/
theorem hz : (![0, 0] : Fin 2 → Nat) = fun _ => 0 := funext fun a => by fin_cases a <;> rfl

/-- A middle point: the scratch, holding `acc`, ends at the update of `acc`. -/
theorem scratch_mid (c : Dev nD) (i : grid0.Coords) (a1 : Memref sig .tc .vmem S4096x128 .f32) (h1 : a1.IsWhole) (a2 : Memref sig .tc .vmem S128x256 .f32) (h2 : a2.IsWhole) (a3 : Memref sig .tc .vmem S1x128 .f32) (h3 : a3.IsWhole) (a4 : Memref sig .tc .vmem S4096x256 .f32) (h4 : a4.IsWhole) (a5 : Memref sig .tc .vmem S4096x256 .f32) (h5 : a5.IsWhole) (a6 : Memref sig .tc .vmem S4096x128 .f32) (h6 : a6.IsWhole) (a7 : Memref sig .tc .vmem S4096x128 .f32) (h7 : a7.IsWhole) (hc0 : ¬cond0_0 i) (hc1 : ¬cond0_1 i)
    (x0 : Vec F S4096x128 .f32) (x1 : Vec F S128x256 .f32) (x2 : Vec F S1x128 .f32) (x3 : Vec F S4096x256 .f32) (x4 : Vec F S4096x256 .f32) (acc : Vec F S4096x128 .f32) :
    sout0_B_0 c i a1 h1 a2 h2 a3 h3 a4 h4 a5 h5 a6 h6 a7 h7 hc0 hc1 x0 x1 x2 x3 x4 acc = k0_pay2 x0 x3 x4 x1 x2 acc := by
  unfold sout0_B_0
  rw [View.read_writes_eq_canon _ _ _ (scover0_B_0 c i a1 h1 a2 h2 a3 h3 a4 h4 a5 h5 a6 h6 a7 h7 hc0 hc1 x0 x1 x2 x3 x4 acc)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S4096x128) hz, View.ld_unit_zero (S := S4096x256) hz, View.ld_unit_zero (S := S128x256) hz, View.ld_unit_zero (S := S1x128) hz]

/-- The first point: the scratch is reset to the zero array and ends at the update of zero. -/
theorem scratch_first (c : Dev nD) (i : grid0.Coords) (a1 : Memref sig .tc .vmem S4096x128 .f32) (h1 : a1.IsWhole) (a2 : Memref sig .tc .vmem S128x256 .f32) (h2 : a2.IsWhole) (a3 : Memref sig .tc .vmem S1x128 .f32) (h3 : a3.IsWhole) (a4 : Memref sig .tc .vmem S4096x256 .f32) (h4 : a4.IsWhole) (a5 : Memref sig .tc .vmem S4096x256 .f32) (h5 : a5.IsWhole) (a6 : Memref sig .tc .vmem S4096x128 .f32) (h6 : a6.IsWhole) (a7 : Memref sig .tc .vmem S4096x128 .f32) (h7 : a7.IsWhole) (hc0 : cond0_0 i) (hc1 : ¬cond0_1 i)
    (x0 : Vec F S4096x128 .f32) (x1 : Vec F S128x256 .f32) (x2 : Vec F S1x128 .f32) (x3 : Vec F S4096x256 .f32) (x4 : Vec F S4096x256 .f32) :
    sout0_A_0 c i a1 h1 a2 h2 a3 h3 a4 h4 a5 h5 a6 h6 a7 h7 hc0 hc1 x0 x1 x2 x3 x4 = k0_pay2 x0 x3 x4 x1 x2 (k0_pay1 (F := F)) := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S4096x128) hz, View.readCov_unit_zero (S := S4096x128) _ hz]
  simp only [View.readAt_eq_ld, h1.read_unread, h2.read_unread, h3.read_unread, h4.read_unread, h5.read_unread, h7.read_unread,
    View.ld_unit_zero (S := S4096x128) hz, View.ld_unit_zero (S := S4096x256) hz, View.ld_unit_zero (S := S128x256) hz, View.ld_unit_zero (S := S1x128) hz]

/-- The last point: the scratch, holding `acc`, ends at the update of `acc` … -/
theorem scratch_last (c : Dev nD) (i : grid0.Coords) (a1 : Memref sig .tc .vmem S4096x128 .f32) (h1 : a1.IsWhole) (a2 : Memref sig .tc .vmem S128x256 .f32) (h2 : a2.IsWhole) (a3 : Memref sig .tc .vmem S1x128 .f32) (h3 : a3.IsWhole) (a4 : Memref sig .tc .vmem S4096x256 .f32) (h4 : a4.IsWhole) (a5 : Memref sig .tc .vmem S4096x256 .f32) (h5 : a5.IsWhole) (a6 : Memref sig .tc .vmem S4096x128 .f32) (h6 : a6.IsWhole) (a7 : Memref sig .tc .vmem S4096x128 .f32) (h7 : a7.IsWhole) (hc0 : ¬cond0_0 i) (hc1 : cond0_1 i)
    (x0 : Vec F S4096x128 .f32) (x1 : Vec F S128x256 .f32) (x2 : Vec F S1x128 .f32) (x3 : Vec F S4096x256 .f32) (x4 : Vec F S4096x256 .f32) (acc : Vec F S4096x128 .f32) :
    sout0_C_0 c i a1 h1 a2 h2 a3 h3 a4 h4 a5 h5 a6 h6 a7 h7 hc0 hc1 x0 x1 x2 x3 x4 acc = k0_pay2 x0 x3 x4 x1 x2 acc := by
  unfold sout0_C_0
  rw [View.read_writes_eq_canon _ _ _ (scover0_C_0 c i a1 h1 a2 h2 a3 h3 a4 h4 a5 h5 a6 h6 a7 h7 hc0 hc1 x0 x1 x2 x3 x4 acc)]
  unfold kernelRun0_C
  dsimp only
  sl_unfold_words
  rw [View.canon_unit_zero hz]
  simp only [View.readAt_eq_ld, h1.read_unread, h2.read_unread, h3.read_unread, h4.read_unread, h5.read_unread, h7.read_unread,
    View.ld_unit_zero (S := S4096x128) hz, View.ld_unit_zero (S := S4096x256) hz, View.ld_unit_zero (S := S128x256) hz, View.ld_unit_zero (S := S1x128) hz]

/-- … and the output block is stored whole with what the scratch then holds. -/
theorem out_last (c : Dev nD) (i : grid0.Coords) (a1 : Memref sig .tc .vmem S4096x128 .f32) (h1 : a1.IsWhole) (a2 : Memref sig .tc .vmem S128x256 .f32) (h2 : a2.IsWhole) (a3 : Memref sig .tc .vmem S1x128 .f32) (h3 : a3.IsWhole) (a4 : Memref sig .tc .vmem S4096x256 .f32) (h4 : a4.IsWhole) (a5 : Memref sig .tc .vmem S4096x256 .f32) (h5 : a5.IsWhole) (a6 : Memref sig .tc .vmem S4096x128 .f32) (h6 : a6.IsWhole) (a7 : Memref sig .tc .vmem S4096x128 .f32) (h7 : a7.IsWhole) (hc0 : ¬cond0_0 i) (hc1 : cond0_1 i)
    (x0 : Vec F S4096x128 .f32) (x1 : Vec F S128x256 .f32) (x2 : Vec F S1x128 .f32) (x3 : Vec F S4096x256 .f32) (x4 : Vec F S4096x256 .f32) (acc : Vec F S4096x128 .f32) :
    out0_C_5 c i a1 h1 a2 h2 a3 h3 a4 h4 a5 h5 a6 h6 a7 h7 hc0 hc1 x0 x1 x2 x3 x4 acc = k0_pay2 x0 x3 x4 x1 x2 acc := by
  unfold out0_C_5
  rw [View.read_writes_eq_canon _ _ _ (cover0_C_5 c i a1 h1 a2 h2 a3 h3 a4 h4 a5 h5 a6 h6 a7 h7 hc0 hc1 x0 x1 x2 x3 x4 acc)]
  unfold kernelRun0_C
  dsimp only
  sl_unfold_words
  rw [View.canon_unit_zero hz]
  simp only [View.readCov_unit_zero (S := S4096x128) _ hz, View.readAt_eq_ld, h1.read_unread, h2.read_unread, h3.read_unread, h4.read_unread, h5.read_unread, h7.read_unread,
    View.ld_unit_zero (S := S4096x128) hz, View.ld_unit_zero (S := S4096x256) hz, View.ld_unit_zero (S := S128x256) hz, View.ld_unit_zero (S := S1x128) hz]

end Cert.KernelIdeal.Pieces

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.LibTransposedDot.lean ====
/-
  A matrix product with the right operand transposed, read at an entry.

  For the dimension numbers `⟨[1], [1], [0], [0], [], []⟩` (an M×K operand times an N×K operand, both contracted on
  their last axis, no batch axis), the product accumulated into a zero array has, at entry (p, q), the value
  Σ_k lhs (p, k) · rhs (q, k) on the extended reals: no rounding and no order of summation is left in it. The statement
  is generic in the three extents and in the operands' float formats (a change of format is the identity on the
  extended reals); a dimension record with these six lists IS `DotDims.transposedRhs M K N` (its well-formedness
  proof is a proposition), so the lemma applies to it as it stands.
-/
import Idealize.ShloMosaic.PureOps.Ideal.Laws
import Idealize.ShloMosaic.Lib.ValueIdx

namespace Idealize.ShloMosaic.TransposedDot

open Idealize.ShloMosaic Idealize.ShloMosaic.ValueIdx

/-- The left operand's row coordinate at output entry `i` is `i`'s row. -/
theorem lhs_row (M K N : Nat) (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction index. -/
theorem lhs_col (M K N : Nat) (i : (⟨2, ![M, N]⟩ : Shape).Idx) (c : (DotDims.transposedRhs M K N).contr.Idx) :
    ((DotDims.transposedRhs M K N).lhsIdx i c 1).val = (c ⟨0, Nat.one_pos⟩).val :=
  (DotDims.transposedRhs M K N).lhsIdx_val_of_single rfl i c

/-- The right operand's row coordinate at output entry `i` is `i`'s column. -/
theorem rhs_row (M K N : Nat) (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction index. -/
theorem rhs_col (M K N : Nat) (i : (⟨2, ![M, N]⟩ : Shape).Idx) (c : (DotDims.transposedRhs M K N).contr.Idx) :
    ((DotDims.transposedRhs M K N).rhsIdx i c 1).val = (c ⟨0, Nat.one_pos⟩).val :=
  (DotDims.transposedRhs M K N).rhsIdx_val_of_single rfl i c

/-- An M×K by N×K product into the zero array, at entry (p, q), is `Σ_k lhs (p, k) · rhs (q, k)`. -/
theorem matmul_zero_apply {φ₁ φ₂ : FTy} (M K N : Nat) (lhs : FVec Ideal ⟨2, ![M, K]⟩ φ₁) (rhs : FVec Ideal ⟨2, ![N, K]⟩ φ₂)
    (p : Fin M) (q : Fin N) :
    FloatOps.matmul (DotDims.transposedRhs M K N) none lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row M K N _ _
      | ⟨1, _⟩ => exact (rhs_col M K N _ _).trans hk)
  rw [el, er]

end Idealize.ShloMosaic.TransposedDot
-- ==== Proof.LibTransposedLhsDot.lean ====
/-
  A matrix product with the left operand transposed, read at an entry.

  For the dimension numbers `⟨[0], [0], [1], [1], [], []⟩` (a K×M operand times a K×N operand, both contracted on
  their first axis, no batch axis), the product accumulated into a zero array has, at entry (p, q), the value
  Σ_k lhs (k, p) · rhs (k, q) on the extended reals: no rounding and no order of summation is left in it. The statement
  is generic in the three extents and in the operands' float formats (a change of format is the identity on the
  extended reals); a dimension record with these six lists IS `DotDims.transposedLhs M K N` (its well-formedness
  proof is a proposition), so the lemma applies to it as it stands.
-/
import Idealize.ShloMosaic.PureOps.Ideal.Laws
import Idealize.ShloMosaic.Lib.ValueIdx

namespace Idealize.ShloMosaic

/-- The attribute `<[0], [0], [1], [1], [0, 1, 1, 1], [], []>` (its fifth entry is the output order, which the record
    does not carry): `K×M` by `K×N`, both operands contracted on their first axis. -/
def DotDims.transposedLhs (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

namespace TransposedLhsDot

open Idealize.ShloMosaic Idealize.ShloMosaic.ValueIdx

/-- The left operand's row coordinate is the contraction index. -/
theorem lhs_row (M K N : Nat) (i : (⟨2, ![M, N]⟩ : Shape).Idx) (c : (DotDims.transposedLhs M K N).contr.Idx) :
    ((DotDims.transposedLhs M K N).lhsIdx i c 0).val = (c ⟨0, Nat.one_pos⟩).val :=
  (DotDims.transposedLhs M K N).lhsIdx_val_of_single rfl i c

/-- The left operand's column coordinate at output entry `i` is `i`'s row. -/
theorem lhs_col (M K N : Nat) (i : (⟨2, ![M, N]⟩ : Shape).Idx) (c : (DotDims.transposedLhs M K N).contr.Idx) :
    ((DotDims.transposedLhs M K N).lhsIdx i c 1).val = (i 0).val := by
  unfold DotDims.lhsIdx
  rw [dif_neg (show ¬(1 : Fin (⟨2, ![K, M]⟩ : Shape).rank) ∈ (DotDims.transposedLhs M K N).lhsBatch by simp [DotDims.transposedLhs]),
    dif_pos (show (1 : Fin (⟨2, ![K, M]⟩ : Shape).rank) ∈ (DotDims.transposedLhs M K N).lhsNonContracting by simp [DotDims.transposedLhs])]
  rfl

/-- The right operand's row coordinate is the contraction index. -/
theorem rhs_row (M K N : Nat) (i : (⟨2, ![M, N]⟩ : Shape).Idx) (c : (DotDims.transposedLhs M K N).contr.Idx) :
    ((DotDims.transposedLhs M K N).rhsIdx i c 0).val = (c ⟨0, Nat.one_pos⟩).val :=
  (DotDims.transposedLhs M K N).rhsIdx_val_of_single rfl i c

/-- The right operand's column coordinate at output entry `i` is `i`'s column. -/
theorem rhs_col (M K N : Nat) (i : (⟨2, ![M, N]⟩ : Shape).Idx) (c : (DotDims.transposedLhs M K N).contr.Idx) :
    ((DotDims.transposedLhs M K N).rhsIdx i c 1).val = (i 1).val := by
  unfold DotDims.rhsIdx
  rw [dif_neg (show ¬(1 : Fin (⟨2, ![K, N]⟩ : Shape).rank) ∈ (DotDims.transposedLhs M K N).rhsBatch by simp [DotDims.transposedLhs]),
    dif_pos (show (1 : Fin (⟨2, ![K, N]⟩ : Shape).rank) ∈ (DotDims.transposedLhs M K N).rhsNonContracting by simp [DotDims.transposedLhs])]
  rfl

/-- A K×M by K×N product into the zero array, at entry (p, q), is `Σ_k lhs (k, p) · rhs (k, q)`. -/
theorem matmul_zero_apply {φ₁ φ₂ : FTy} (M K N : Nat) (lhs : FVec Ideal ⟨2, ![K, M]⟩ φ₁) (rhs : FVec Ideal ⟨2, ![K, N]⟩ φ₂)
    (p : Fin M) (q : Fin N) :
    FloatOps.matmul (DotDims.transposedLhs M K N) none lhs rhs (constant ⟨2, ![M, N]⟩ .f32 0x00000000#32) (ix2 p q)
      = ∑ k : Fin K, lhs (ix2 k p) * rhs (ix2 k q) := by
  rw [Ideal.matmul_constant_zero_apply, ← Equiv.sum_comp (contrEquiv1 (DotDims.transposedLhs M K N) K rfl rfl).symm]
  refine Finset.sum_congr rfl fun k _ => ?_
  have hk := contrEquiv1_symm_val (DotDims.transposedLhs M K N) K rfl rfl k
  have el : (DotDims.transposedLhs M K N).lhsIdx (ix2 p q) ((contrEquiv1 (DotDims.transposedLhs M K N) K rfl rfl).symm k) = ix2 k p :=
    funext fun a => Fin.ext (by
      match a with
      | ⟨0, _⟩ => exact (lhs_row M K N _ _).trans hk
      | ⟨1, _⟩ => exact lhs_col M K N _ _)
  have er : (DotDims.transposedLhs M K N).rhsIdx (ix2 p q) ((contrEquiv1 (DotDims.transposedLhs M K N) K rfl rfl).symm k) = ix2 k q :=
    funext fun a => Fin.ext (by
      match a with
      | ⟨0, _⟩ => exact (rhs_row M K N _ _).trans hk
      | ⟨1, _⟩ => exact rhs_col M K N _ _)
  rw [el, er]

end TransposedLhsDot

end Idealize.ShloMosaic
-- ==== Proof.Spec.lean ====
/-
  The layer as one function of its five arguments, on the extended reals, and the same function tile by tile.

  With node features x (4096 × 128), two incidence matrices src and tgt (4096 nodes × 32768 edges), weights w
  (128 × 256) and bias b (128):
    an edge ε gathers, through each incidence matrix a, the features  feat a ε d = Σ_n a(n, ε) · x(n, d);
    its input is the 256-vector (feat src ε, feat tgt ε), its message  msg ε o = max(Σ_k in ε k · w(o, k) + b(o), 0);
    node n receives  out(n, o) = Σ_ε tgt(n, ε) · msg ε o.
  The 32768 edges fall into 128 tiles of 256 consecutive edges. A tile sees only its own 256 columns of src and tgt,
  computes the messages of its edges from them, and contributes to out the part of the sum that runs over its edges;
  out is the sum of the 128 contributions. Only commutativity and associativity of + on the extended reals are used
  (a sum over a product of two index ranges is the iterated sum), so no argument needs to be finite.
-/
import Idealize.ShloMosaic.PureOps.Ideal.Laws
import Idealize.ShloMosaic.Lib.ValueIdx

noncomputable section

open scoped BigOperators

namespace Cert.Layer

open Idealize.ShloMosaic Idealize.ShloMosaic.ValueIdx

/-- Node features, and the result: 4096 nodes by 128 channels. -/
abbrev SNode : Shape := ⟨2, ![4096, 128]⟩
/-- An incidence matrix: 4096 nodes by 32768 edges. -/
abbrev SInc : Shape := ⟨2, ![4096, 32768]⟩
/-- One tile of an incidence matrix: 4096 nodes by 256 edges. -/
abbrev STile : Shape := ⟨2, ![4096, 256]⟩
/-- The weights: 128 output channels by 256 inputs. -/
abbrev SWt : Shape := ⟨2, ![128, 256]⟩
/-- The bias as a vector, and as the one-row matrix a tile adds. -/
abbrev SBias : Shape := ⟨1, ![128]⟩
abbrev SBiasRow : Shape := ⟨2, ![1, 128]⟩

/-- The zero every message is clamped at, kept as the float word both programs print. -/
abbrev zero : EReal := Ideal.ofBits .f32 0x00000000#32

/-! ## The whole layer -/

/-- The features edge `ε` gathers through the incidence matrix `a`. -/
def feat (x : SNode.Idx → EReal) (a : SInc.Idx → EReal) (ε : Fin 32768) (d : Fin 128) : EReal :=
  ∑ n : Fin 4096, a (ix2 n ε) * x (ix2 n d)

/-- Edge `ε`'s 256 inputs: what it gathers through `src`, then what it gathers through `tgt`. -/
def edgeIn (x : SNode.Idx → EReal) (src tgt : SInc.Idx → EReal) (ε : Fin 32768) (k : Fin 256) : EReal :=
  if h : k.val < 128 then feat x src ε ⟨k.val, h⟩ else feat x tgt ε ⟨k.val - 128, by have := k.isLt; omega⟩

/-- Edge `ε`'s message on channel `o`. -/
def msg (x : SNode.Idx → EReal) (src tgt : SInc.Idx → EReal) (w : SWt.Idx → EReal) (b : SBias.Idx → EReal)
    (ε : Fin 32768) (o : Fin 128) : EReal :=
  max (∑ k : Fin 256, edgeIn x src tgt ε k * w (ix2 o k) + b (ix1 o)) zero

/-- The layer's result. -/
def out (x : SNode.Idx → EReal) (src tgt : SInc.Idx → EReal) (w : SWt.Idx → EReal) (b : SBias.Idx → EReal) :
    SNode.Idx → EReal := fun i =>
  ∑ ε : Fin 32768, tgt (ix2 (i 0) ε) * msg x src tgt w b ε (i 1)

/-! ## One tile, from its own columns -/

/-- The features the tile's edge `j` gathers through the tile `a` of an incidence matrix. -/
def tileFeat (x : SNode.Idx → EReal) (a : STile.Idx → EReal) (j : Fin 256) (d : Fin 128) : EReal :=
  ∑ n : Fin 4096, a (ix2 n j) * x (ix2 n d)

/-- The tile's edge `j`'s 256 inputs. -/
def tileIn (x : SNode.Idx → EReal) (sa ta : STile.Idx → EReal) (j : Fin 256) (k : Fin 256) : EReal :=
  if h : k.val < 128 then tileFeat x sa j ⟨k.val, h⟩ else tileFeat x ta j ⟨k.val - 128, by have := k.isLt; omega⟩

/-- The tile's edge `j`'s message on channel `o`, the bias given as a one-row matrix. -/
def tileMsg (x : SNode.Idx → EReal) (sa ta : STile.Idx → EReal) (w : SWt.Idx → EReal) (b : SBiasRow.Idx → EReal)
    (j : Fin 256) (o : Fin 128) : EReal :=
  max (∑ k : Fin 256, tileIn x sa ta j k * w (ix2 o k) + b (ix2 (0 : Fin 1) o)) zero

/-- What the tile's 256 edges send to the nodes. -/
def tileOut (x : SNode.Idx → EReal) (sa ta : STile.Idx → EReal) (w : SWt.Idx → EReal) (b : SBiasRow.Idx → EReal) :
    SNode.Idx → EReal := fun i =>
  ∑ j : Fin 256, ta (ix2 (i 0) j) * tileMsg x sa ta w b j (i 1)

/-! ## The tiles of the whole arrays -/

/-- Edge `j` of tile `s` is edge `256 s + j` (reduced below the number of edges, so that it is defined for every `s`). -/
def edgeOf (s : ℕ) (j : Fin 256) : Fin 32768 := ⟨(256 * s + j.val) % 32768, Nat.mod_lt _ (by norm_num)⟩

/-- Tile `s` of an incidence matrix: its columns `256 s … 256 s + 255`. -/
def tileOf (a : SInc.Idx → EReal) (s : ℕ) : STile.Idx → EReal := fun y => a (ix2 (y 0) (edgeOf s (y 1)))

/-- The bias as a one-row matrix. -/
def biasRow (b : SBias.Idx → EReal) : SBiasRow.Idx → EReal := fun y => b (ix1 (y 1))

/-- Tile `s`'s contribution to the result. -/
def tileTerm (x : SNode.Idx → EReal) (src tgt : SInc.Idx → EReal) (w : SWt.Idx → EReal) (b : SBias.Idx → EReal) (s : ℕ) :
    SNode.Idx → EReal :=
  tileOut x (tileOf src s) (tileOf tgt s) w (biasRow b)

/-- A tile's edge computes, from the tile's columns, the message the whole layer gives that edge. -/
theorem tileMsg_tileOf (x : SNode.Idx → EReal) (src tgt : SInc.Idx → EReal) (w : SWt.Idx → EReal) (b : SBias.Idx → EReal)
    (s : ℕ) (j : Fin 256) (o : Fin 128) :
    tileMsg x (tileOf src s) (tileOf tgt s) w (biasRow b) j o = msg x src tgt w b (edgeOf s j) o := rfl

/-- A sum over the 32768 edges is the sum over the 128 tiles of the sums over each tile's 256 edges. -/
theorem sum_edges_by_tiles {M : Type*} [AddCommMonoid M] (f : Fin 32768 → M) :
    ∑ ε : Fin 32768, f ε = ∑ s ∈ Finset.range 128, ∑ j : Fin 256, f (edgeOf s j) := by
  rw [Finset.sum_range (fun s => ∑ j : Fin 256, f (edgeOf s j))]
  have e := (Equiv.sum_comp (finProdFinEquiv (m := 128) (n := 256)) f).symm
  rw [Fintype.sum_prod_type] at e
  refine e.trans (Finset.sum_congr rfl fun t _ => Finset.sum_congr rfl fun j _ => congrArg f (Fin.ext ?_))
  have ht := t.isLt
  have hj := j.isLt
  show j.val + 256 * t.val = (256 * t.val + j.val) % 32768
  omega

/-- The layer's result is the sum of the 128 tiles' contributions. -/
theorem out_eq_sum_tiles (x : SNode.Idx → EReal) (src tgt : SInc.Idx → EReal) (w : SWt.Idx → EReal) (b : SBias.Idx → EReal)
    (i : SNode.Idx) :
    out x src tgt w b i = ∑ s ∈ Finset.range 128, tileTerm x src tgt w b s i := by
  unfold out
  rw [sum_edges_by_tiles]
  rfl

end Cert.Layer

end
-- ==== Proof.Body.lean ====
/-
  One grid point's update of the running sum, read at an entry.

  The update adds to the running sum `acc` the contribution of the point's tile of edges: with the node features
  `x`, the tile's columns `sa` of src and `ta` of tgt, the weights `w` and the bias row `b`,
      update(n, o) = acc(n, o) + Σ_j ta(n, j) · max(Σ_k in(j, k) · w(o, k) + b(0, o), 0),
  where in(j, ·) joins Σ_n sa(n, j) · x(n, ·) and Σ_n ta(n, j) · x(n, ·) end to end. The body computes it in five
  stages — two products that contract the node axis, the join, the product with the weights contracted on their
  last axis, the bias and clamp, the product with the tile of tgt — and every change of float format between the
  stages is the identity on the extended reals. Each stage is named here and read at an entry; the update is then
  `acc + tileOut` of the specification.
-/
import proofs.«112535_j58995670778248_1_alg».proof.Proof.Gen.KernelIdeal.Skeleton
import proofs.«112535_j58995670778248_1_alg».proof.Proof.LibPlainDot
import proofs.«112535_j58995670778248_1_alg».proof.Proof.LibTransposedDot
import proofs.«112535_j58995670778248_1_alg».proof.Proof.LibTransposedLhsDot
import proofs.«112535_j58995670778248_1_alg».proof.Proof.Spec
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Layer

/-- Stage 1: what the tile's edges gather through the tile `a`: the product of `a` and `x` contracted on the node axis. -/
def gathered (x : FVec Ideal S4096x128 .f32) (a : FVec Ideal S4096x256 .f32) : FVec Ideal S256x128 .f32 :=
  matmul dot_S4096x256_S4096x128_S256x128_0_0_1_1_n_n none a x (constant S256x128 .f32 0x00000000#32)

/-- Stage 2: the two gathers joined along the channel axis. -/
def joined (x : FVec Ideal S4096x128 .f32) (sa ta : FVec Ideal S4096x256 .f32) : FVec Ideal S256x256 .f32 :=
  concatenate S256x256 1 [⟨S256x128, gathered x sa⟩, ⟨S256x128, gathered x ta⟩] concatenates_S256x128_S256x128_S256x256_d1

/-- Stage 3: the linear map, the weights contracted on their last axis. -/
def projected (x : FVec Ideal S4096x128 .f32) (sa ta : FVec Ideal S4096x256 .f32) (w : FVec Ideal S128x256 .f32) :
    FVec Ideal S256x128 .f32 :=
  matmul dot_S256x256_S128x256_S256x128_1_1_0_0_n_n none (joined x sa ta) w (constant S256x128 .f32 0x00000000#32)

/-- Stage 4: the bias row added to every edge, and the clamp at zero. -/
def messages (x : FVec Ideal S4096x128 .f32) (sa ta : FVec Ideal S4096x256 .f32) (w : FVec Ideal S128x256 .f32)
    (b : FVec Ideal S1x128 .f32) : FVec Ideal S256x128 .f32 :=
  maximumf (addf (projected x sa ta w) (broadcastTo S256x128 (shapeCast S1x128 b shapeCasts_S1x128_S1x128) broadcasts_S1x128_S256x128))
    (broadcast S256x128 (Scalar.ofBits (F := Ideal) .f32 0x00000000#32))

/-- Stage 5: the messages sent to the nodes through the tile of tgt. -/
def contribution (x : FVec Ideal S4096x128 .f32) (sa ta : FVec Ideal S4096x256 .f32) (w : FVec Ideal S128x256 .f32)
    (b : FVec Ideal S1x128 .f32) : FVec Ideal S4096x128 .f32 :=
  matmul dot_S4096x256_S256x128_S4096x128_1_0_0_1_n_n none ta (messages x sa ta w b) (constant S4096x128 .f32 0x00000000#32)

/-- The body's update is the running sum plus stage 5 (the format changes between the stages are the identity). -/
theorem update_eq (x : Vec Ideal S4096x128 .f32) (sa ta : Vec Ideal S4096x256 .f32) (w : Vec Ideal S128x256 .f32)
    (b : Vec Ideal S1x128 .f32) (acc : Vec Ideal S4096x128 .f32) :
    k0_pay2 (F := Ideal) x sa ta w b acc
      = shapeCast S4096x128 (addf (φ := .f32) acc (contribution x sa ta w b)) shapeCasts_S4096x128_S4096x128 := rfl

/-- Stage 1 at an entry: edge `j`'s gathered channel `d`. -/
theorem gathered_apply (x : FVec Ideal S4096x128 .f32) (a : FVec Ideal S4096x256 .f32) (j : Fin 256) (d : Fin 128) :
    gathered x a (ix2 j d) = tileFeat x a j d :=
  TransposedLhsDot.matmul_zero_apply 256 4096 128 a x j d

/-- Stage 2 at an entry: the first 128 channels are gathered through `sa`, the last 128 through `ta`. -/
theorem joined_apply (x : FVec Ideal S4096x128 .f32) (sa ta : FVec Ideal S4096x256 .f32) (j : Fin 256) (k : Fin 256) :
    joined x sa ta (ix2 j k) = tileIn x sa ta j k := by
  unfold joined tileIn
  by_cases hk : k.val < 128
  · rw [dif_pos hk, ← gathered_apply]
    exact concatenate_pair_apply_left (t := S256x256) (s₁ := S256x128) (s₂ := S256x128) 1 (gathered x sa) (gathered x ta)
      concatenates_S256x128_S256x128_S256x256_d1 (ix2 j k) rfl (ix2 j (⟨k.val, hk⟩ : Fin 128)) (fun c => match c with
      | ⟨0, _⟩ => rfl
      | ⟨1, _⟩ => rfl)
  · rw [dif_neg hk, ← gathered_apply]
    exact concatenate_pair_apply_right (t := S256x256) (s₁ := S256x128) (s₂ := S256x128) 1 (gathered x sa) (gathered x ta)
      concatenates_S256x128_S256x128_S256x256_d1 (ix2 j k) rfl rfl (ix2 j (⟨k.val - 128, by have := k.isLt; omega⟩ : Fin 128)) (fun c hc => match c, hc with
      | ⟨0, _⟩, _ => rfl
      | ⟨1, _⟩, hc => absurd rfl hc) (by show k.val - 128 + 128 = k.val; omega)

/-- Stage 3 at an entry. -/
theorem projected_apply (x : FVec Ideal S4096x128 .f32) (sa ta : FVec Ideal S4096x256 .f32) (w : FVec Ideal S128x256 .f32)
    (j : Fin 256) (o : Fin 128) :
    projected x sa ta w (ix2 j o) = ∑ k : Fin 256, tileIn x sa ta j k * w (ix2 o k) := by
  unfold projected
  refine (TransposedDot.matmul_zero_apply 256 256 128 (joined x sa ta) w j o).trans ?_
  exact Finset.sum_congr rfl fun k _ => by rw [joined_apply]

/-- Stage 4 at an entry: the tile's message. -/
theorem messages_apply (x : FVec Ideal S4096x128 .f32) (sa ta : FVec Ideal S4096x256 .f32) (w : FVec Ideal S128x256 .f32)
    (b : FVec Ideal S1x128 .f32) (j : Fin 256) (o : Fin 128) :
    messages x sa ta w b (ix2 j o) = tileMsg x sa ta w b j o := by
  unfold messages tileMsg
  rw [maximumf_apply, addf_apply, projected_apply, broadcastTo_1b_ab_apply, shapeCast_self]
  rfl

/-- Stage 5 at an entry: what the tile sends to node `n` on channel `o`. -/
theorem contribution_apply (x : FVec Ideal S4096x128 .f32) (sa ta : FVec Ideal S4096x256 .f32) (w : FVec Ideal S128x256 .f32)
    (b : FVec Ideal S1x128 .f32) (n : Fin 4096) (o : Fin 128) :
    contribution x sa ta w b (ix2 n o) = tileOut x sa ta w b (ix2 n o) := by
  unfold contribution tileOut
  refine (PlainDot.matmul_zero_apply 4096 256 128 ta (messages x sa ta w b) n o).trans ?_
  exact Finset.sum_congr rfl fun j _ => by rw [messages_apply]

/-- The update at any entry: the running sum plus the tile's contribution. -/
theorem update_apply (x : Vec Ideal S4096x128 .f32) (sa ta : Vec Ideal S4096x256 .f32) (w : Vec Ideal S128x256 .f32)
    (b : Vec Ideal S1x128 .f32) (acc : Vec Ideal S4096x128 .f32) (i : S4096x128.Idx) :
    k0_pay2 (F := Ideal) x sa ta w b acc i = acc i + tileOut x sa ta w b i := by
  obtain ⟨n, o, rfl⟩ : ∃ (n : Fin 4096) (o : Fin 128), i = ix2 n o := ⟨i 0, i 1, eq_ix2 i⟩
  rw [update_eq, shapeCast_self, addf_apply, contribution_apply]

/-- The zero array the first point resets the running sum to is zero at every entry. -/
theorem reset_apply (i : S4096x128.Idx) : k0_pay1 (F := Ideal) i = 0 := by
  unfold k0_pay1
  rw [shapeCast_self]
  exact Ideal.ofBits_zero_f32

end Cert.KernelIdeal.Body

end
-- ==== Proof.Blocks.lean ====
/-
  The blocks a grid point is handed, as parts of the argument arrays.

  At grid point t the node features, the weights and the bias row arrive whole (their block index never moves),
  and the two incidence matrices arrive as their tile t: columns 256 t … 256 t + 255. The bias row is the bias
  vector laid out as one row of 128 by the reshape that precedes the call.
-/
import proofs.«112535_j58995670778248_1_alg».proof.Proof.Gen.KernelIdeal.Frame
import proofs.«112535_j58995670778248_1_alg».proof.Proof.Spec
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Layer

variable (m : (ℓ : Loc nD τ sig) → Buf (Elt Ideal) ℓ)

/-- The five argument arrays of device `c`, by their mathematical names. -/
abbrev xArr (c : Dev nD) : Vec Ideal S4096x128 .f32 := m ((c : Thread nD τ).loc main_arg0)
abbrev srcArr (c : Dev nD) : Vec Ideal S4096x32768 .f32 := m ((c : Thread nD τ).loc main_arg1)
abbrev tgtArr (c : Dev nD) : Vec Ideal S4096x32768 .f32 := m ((c : Thread nD τ).loc main_arg2)
abbrev wArr (c : Dev nD) : Vec Ideal S128x256 .f32 := m ((c : Thread nD τ).loc main_arg3)
abbrev bArr (c : Dev nD) : Vec Ideal S128 .f32 := m ((c : Thread nD τ).loc main_arg4)

/-- Where each window's block sits at point `t`: block (0, 0) for the three whole arrays, block (0, t) for the tiles. -/
theorem index_whole0 : ∀ t : Fin cfg0.N, win0_0.index t 0 = 0 ∧ win0_0.index t 1 = 0 :=
  (by decide +kernel : ∀ t : Fin grid0.N, win0_0.index t 0 = 0 ∧ win0_0.index t 1 = 0)
theorem index_whole1 : ∀ t : Fin cfg0.N, win0_1.index t 0 = 0 ∧ win0_1.index t 1 = 0 :=
  (by decide +kernel : ∀ t : Fin grid0.N, win0_1.index t 0 = 0 ∧ win0_1.index t 1 = 0)
theorem index_whole2 : ∀ t : Fin cfg0.N, win0_2.index t 0 = 0 ∧ win0_2.index t 1 = 0 :=
  (by decide +kernel : ∀ t : Fin grid0.N, win0_2.index t 0 = 0 ∧ win0_2.index t 1 = 0)
theorem index_tile3 : ∀ t : Fin cfg0.N, win0_3.index t 0 = 0 ∧ win0_3.index t 1 = t.val :=
  (by decide +kernel : ∀ t : Fin grid0.N, win0_3.index t 0 = 0 ∧ win0_3.index t 1 = t.val)
theorem index_tile4 : ∀ t : Fin cfg0.N, win0_4.index t 0 = 0 ∧ win0_4.index t 1 = t.val :=
  (by decide +kernel : ∀ t : Fin grid0.N, win0_4.index t 0 = 0 ∧ win0_4.index t 1 = t.val)

/-- The node features arrive whole. -/
theorem blk_x (c : Dev nD) (t : Fin cfg0.N) : (iblk m c 0 t : Vec Ideal S4096x128 .f32) = xArr m c := by
  funext y
  unfold iblk
  rw [View.read_apply]
  show V m c main_arg0 _ = xArr m c y
  rw [V_main_arg0]
  show m ((c : Thread nD τ).loc main_arg0) _ = m ((c : Thread nD τ).loc main_arg0) y
  congr 1
  funext a
  apply Fin.ext
  match a with
  | ⟨0, _⟩ => show win0_0.index t 0 * 4096 + 1 * (y 0).val = (y 0).val; rw [(index_whole0 t).1]; omega
  | ⟨1, _⟩ => show win0_0.index t 1 * 128 + 1 * (y 1).val = (y 1).val; rw [(index_whole0 t).2]; omega

/-- The weights arrive whole. -/
theorem blk_w (c : Dev nD) (t : Fin cfg0.N) : (iblk m c 1 t : Vec Ideal S128x256 .f32) = wArr m c := by
  funext y
  unfold iblk
  rw [View.read_apply]
  show V m c main_arg3 _ = wArr m c y
  rw [V_main_arg3]
  show m ((c : Thread nD τ).loc main_arg3) _ = m ((c : Thread nD τ).loc main_arg3) y
  congr 1
  funext a
  apply Fin.ext
  match a with
  | ⟨0, _⟩ => show win0_1.index t 0 * 128 + 1 * (y 0).val = (y 0).val; rw [(index_whole1 t).1]; omega
  | ⟨1, _⟩ => show win0_1.index t 1 * 256 + 1 * (y 1).val = (y 1).val; rw [(index_whole1 t).2]; omega

/-- The array the bias window stages is the bias vector laid out as one row. -/
theorem biasRow_arr (c : Dev nD) :
    (V m c main_v0 : S1x128.Idx → EReal) = shapeCast S1x128 (bArr m c) shapeCasts_S128_S1x128 := by
  dsimp only [Gen.V, Gen.hostOps0]
  after_results
  rfl

/-- The bias arrives as that one row. -/
theorem blk_b (c : Dev nD) (t : Fin cfg0.N) : (iblk m c 2 t : Vec Ideal S1x128 .f32) = biasRow (bArr m c) := by
  funext y
  obtain ⟨u, o, rfl⟩ : ∃ (u : Fin 1) (o : Fin 128), y = ix2 u o := ⟨y 0, y 1, eq_ix2 y⟩
  unfold iblk
  rw [View.read_apply]
  show V m c main_v0 _ = biasRow (bArr m c) (ix2 u o)
  rw [biasRow_arr]
  refine Eq.trans ?_ (shapeCast_a_1a_apply (bArr m c) shapeCasts_S128_S1x128 u o)
  congr 1
  funext a
  apply Fin.ext
  match a with
  | ⟨0, _⟩ => show win0_2.index t 0 * 1 + 1 * u.val = u.val; rw [(index_whole2 t).1]; omega
  | ⟨1, _⟩ => show win0_2.index t 1 * 128 + 1 * o.val = o.val; rw [(index_whole2 t).2]; omega

/-- src arrives as its tile `t`. -/
theorem blk_src (c : Dev nD) (t : Fin cfg0.N) : (iblk m c 3 t : Vec Ideal S4096x256 .f32) = tileOf (srcArr m c) t.val := by
  funext y
  have ht : t.val < 128 := lt_of_lt_of_eq t.isLt (show cfg0.N = 128 from N_0)
  have hy := idx2_lt1 y
  unfold iblk
  rw [View.read_apply]
  show V m c main_arg1 _ = tileOf (srcArr m c) t.val y
  rw [V_main_arg1]
  show m ((c : Thread nD τ).loc main_arg1) _ = m ((c : Thread nD τ).loc main_arg1) (ix2 (y 0) (edgeOf t.val (y 1)))
  congr 1
  funext a
  apply Fin.ext
  match a with
  | ⟨0, _⟩ => show win0_3.index t 0 * 4096 + 1 * (y 0).val = (y 0).val; rw [(index_tile3 t).1]; omega
  | ⟨1, _⟩ => show win0_3.index t 1 * 256 + 1 * (y 1).val = (256 * t.val + (y 1).val) % 32768; rw [(index_tile3 t).2]; omega

/-- tgt arrives as its tile `t`. -/
theorem blk_tgt (c : Dev nD) (t : Fin cfg0.N) : (iblk m c 4 t : Vec Ideal S4096x256 .f32) = tileOf (tgtArr m c) t.val := by
  funext y
  have ht : t.val < 128 := lt_of_lt_of_eq t.isLt (show cfg0.N = 128 from N_0)
  have hy := idx2_lt1 y
  unfold iblk
  rw [View.read_apply]
  show V m c main_arg2 _ = tileOf (tgtArr m c) t.val y
  rw [V_main_arg2]
  show m ((c : Thread nD τ).loc main_arg2) _ = m ((c : Thread nD τ).loc main_arg2) (ix2 (y 0) (edgeOf t.val (y 1)))
  congr 1
  funext a
  apply Fin.ext
  match a with
  | ⟨0, _⟩ => show win0_4.index t 0 * 4096 + 1 * (y 0).val = (y 0).val; rw [(index_tile4 t).1]; omega
  | ⟨1, _⟩ => show win0_4.index t 1 * 256 + 1 * (y 1).val = (256 * t.val + (y 1).val) % 32768; rw [(index_tile4 t).2]; omega

end Cert.KernelIdeal.Blocks

end
-- ==== Proof.KernelValue.lean ====
/-
  What the kernel's result array holds after the run: the layer's result.

  The running sum starts, at the first grid point, from the zero array plus that point's tile's contribution, and
  every later point adds its own tile's contribution to what the point before left: after point n it is
  0 + Σ_{s ≤ n} (tile s's contribution). After the last point, 127, that is 0 plus the sum over all 128 tiles, which
  is the layer's result (the edges' sum split by tiles). The last point also copies the running sum, after its
  update, into the output block; that block is the whole result array and is the only one ever written back.
-/
import proofs.«112535_j58995670778248_1_alg».proof.Proof.Gen.KernelIdeal.Value
import proofs.«112535_j58995670778248_1_alg».proof.Proof.Pieces
import proofs.«112535_j58995670778248_1_alg».proof.Proof.Body
import proofs.«112535_j58995670778248_1_alg».proof.Proof.Blocks

noncomputable section

open scoped BigOperators

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.Layer Cert.KernelIdeal.Blocks

variable (m : (ℓ : Loc nD τ sig) → Buf (Elt Ideal) ℓ) (ρ : Dev nD → PrngReg)

/-- The layer's result of device `c`'s five arguments. -/
abbrev layerOut (c : Dev nD) : Vec Ideal S4096x128 .f32 :=
  out (xArr m c) (srcArr m c) (tgtArr m c) (wArr m c) (bArr m c)

/-- Tile `s`'s contribution to it. -/
abbrev term (c : Dev nD) (s : ℕ) : S4096x128.Idx → EReal :=
  tileTerm (xArr m c) (srcArr m c) (tgtArr m c) (wArr m c) (bArr m c) s

/-- A point's update of a running sum `acc`, on the point's own blocks, adds the point's tile's contribution. -/
theorem step_apply (c : Dev nD) (t : Fin cfg0.N) (acc : Vec Ideal S4096x128 .f32) (i : S4096x128.Idx) :
    k0_pay2 (F := Ideal) (iblk m c 0 t) (iblk m c 3 t) (iblk m c 4 t) (iblk m c 1 t) (iblk m c 2 t) acc i
      = acc i + term m c t.val i := by
  rw [blk_x m c t, blk_src m c t, blk_tgt m c t, blk_w m c t, blk_b m c t]
  exact Body.update_apply _ _ _ _ _ acc i

/-- The first point leaves zero plus tile 0's contribution in the running sum, whatever it held before. -/
theorem first_apply (c : Dev nD) (h : 0 < cfg0.N) (before : Vec Ideal S4096x128 .f32) (i : S4096x128.Idx) :
    Value.scAt0_0 m c 0 h before i = 0 + term m c 0 i := by
  have h0 : 0 % 128 = 0 := Nat.zero_mod _
  have h1 : ¬0 % 128 = 127 := by omega
  unfold Value.scAt0_0
  rw [dif_pos h0, dif_neg h1]
  refine (congrFun (Pieces.scratch_first (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) scM0_0 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N))) i).trans ?_
  refine (step_apply m c (⟨0, h⟩ : Fin cfg0.N) (k0_pay1 (F := Ideal)) i).trans ?_
  rw [Body.reset_apply]

/-- Every later point adds its tile's contribution to what the point before left. -/
theorem later_apply (c : Dev nD) (n : ℕ) (h : n < cfg0.N) (acc : Vec Ideal S4096x128 .f32) (i : S4096x128.Idx) (hn : 0 < n) :
    Value.scAt0_0 m c n h acc i = acc i + term m c n i := by
  have hN : n < 128 := lt_of_lt_of_eq h (show cfg0.N = 128 from N_0)
  have h0 : ¬n % 128 = 0 := by omega
  unfold Value.scAt0_0
  rw [dif_neg h0]
  by_cases h1 : n % 128 = 127
  · rw [dif_pos h1]
    refine (congrFun (Pieces.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) i).trans ?_
    exact step_apply m c (⟨n, h⟩ : Fin cfg0.N) acc i
  · rw [dif_neg h1]
    refine (congrFun (Pieces.scratch_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) i).trans ?_
    exact step_apply m c (⟨n, h⟩ : Fin cfg0.N) acc i

/-- After point `n` the running sum is zero plus the contributions of tiles 0 … n. -/
theorem scratch_after (c : Dev nD) (n : ℕ) (hn : n < cfg0.N) (i : S4096x128.Idx) :
    (outsAt0 m c n hn).2 i = 0 + ∑ s ∈ Finset.range (n + 1), term m c s i := by
  have hN : n < 128 := lt_of_lt_of_eq hn (show cfg0.N = 128 from N_0)
  rw [Value.soutsAt0_0_sweep m c n hn]
  have e := Pipeline.accAt_add_apply (N := cfg0.N)
    (fun n h => Value.scAt0_0 m c n h (VS0_0.read (Elt Ideal) VS0_0.junk)) (Value.scAt0_0 m c)
    (fun _ => (0 : EReal)) (term m c) 0 127
    (fun h i => first_apply m c h _ i)
    (fun n h acc i h1 _ => later_apply m c n h acc i h1)
    n (by omega) (by omega) i
  simpa only [Nat.zero_add] using e

/-- After the last point the running sum is the layer's result. -/
theorem scratch_last_eq (c : Dev nD) (h : 127 < cfg0.N) : (outsAt0 m c 127 h).2 = layerOut m c := by
  funext i
  rw [scratch_after m c 127 h i, zero_add]
  exact (out_eq_sum_tiles _ _ _ _ _ i).symm

/-- At the last point the output block is stored with the running sum after its update. -/
theorem out_eq_scratch (c : Dev nD) (t : Fin cfg0.N) (h0 : ¬t.val % 128 = 0) (h1 : t.val % 128 = 127) :
    (outsAt0 m c t.val t.isLt).1 = (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).symm

/-- The output window's block is block (0, 0), the whole array, at every point. -/
theorem index_out : ∀ t : Fin cfg0.N, win0_5.index t 0 = 0 ∧ win0_5.index t 1 = 0 :=
  (by decide +kernel : ∀ t : Fin grid0.N, win0_5.index t 0 = 0 ∧ win0_5.index t 1 = 0)

/-- The one write-back, at the last point, writes the layer's result: the block is the whole array. -/
theorem flushed_eq (c : Dev nD) (t : Fin cfg0.N) (hf : (cfg0.win 5).flush t = true) :
    (dats m 0 c).flushed 5 t = ((cfg0.win 5).blk t).view.read (Elt Ideal) (layerOut m c) := by
  have hN : t.val < 128 := lt_of_lt_of_eq t.isLt (show cfg0.N = 128 from N_0)
  have h1 : t.val % 128 = 127 := (flush0_5 t).mp hf
  have h0 : ¬t.val % 128 = 0 := by omega
  have e : (outsAt0 m c t.val t.isLt).2 = layerOut m c := by
    obtain ⟨n, hn⟩ := t
    obtain rfl : n = 127 := by dsimp only at h1 hN; omega
    exact scratch_last_eq m c hn
  rw [Value.flushed5, out_eq_scratch m c t h0 h1, e]
  have hz' : (fun a => win0_5.index t a * main_v1.ty.shape.size a) = fun _ => 0 := funext fun a => by
    match a with
    | ⟨0, _⟩ => show win0_5.index t 0 * 4096 = 0; rw [(index_out t).1]
    | ⟨1, _⟩ => show win0_5.index t 1 * 128 = 0; rw [(index_out t).2]
  exact (Memref.read_access_unit_zero (Elt Ideal) main_v1 hz' (fun a => by rw [congrFun hz' a]; simp) (layerOut m c)).symm

/-- So the result array ends holding the layer's result. -/
theorem final (c : Dev nD) : (dats m 0 c).arrAt 5 cfg0.N = layerOut m c :=
  (dats m 0 c).arrAt_eq_of_cover 5 (layerOut m c) (flushed_eq m c) fun i => by
    have hN : (127 : ℕ) < cfg0.N := by rw [show cfg0.N = 128 from N_0]; decide
    refine ⟨⟨127, hN⟩, (flush0_5 ⟨127, hN⟩).mpr rfl, ?_⟩
    show i ∈ ((View.whole main_v1).slice (win0_5.rect ⟨127, hN⟩)).set
    rw [View.set_slice_whole, Rect.mem_set_unit]
    intro a
    have hi0 : (i 0 : Nat) < 4096 := (i 0).isLt
    have hi1 : (i 1 : Nat) < 128 := (i 1).isLt
    match a with
    | ⟨0, _⟩ =>
      show win0_5.index ⟨127, hN⟩ 0 * win0_5.size 0 ≤ (i 0 : Nat) ∧ (i 0 : Nat) < win0_5.index ⟨127, hN⟩ 0 * win0_5.size 0 + win0_5.xsize (grid0.coords ⟨127, hN⟩) 0
      rw [(index_out ⟨127, hN⟩).1, show win0_5.xsize (grid0.coords ⟨127, hN⟩) 0 = 4096 from rfl]; omega
    | ⟨1, _⟩ =>
      show win0_5.index ⟨127, hN⟩ 1 * win0_5.size 1 ≤ (i 1 : Nat) ∧ (i 1 : Nat) < win0_5.index ⟨127, hN⟩ 1 * win0_5.size 1 + win0_5.xsize (grid0.coords ⟨127, hN⟩) 1
      rw [(index_out ⟨127, hN⟩).2, show win0_5.xsize (grid0.coords ⟨127, hN⟩) 1 = 128 from rfl]; omega

/-- The run, read: the result array at the layer's result of the arguments, the arguments unchanged. -/
theorem run : θ_run defs (onTc (τ := τ) (main (F := Ideal))) ⟨m, fun _ => 0, ρ⟩ fun r => ∀ c : Dev nD,
      r.2.mem ((c : Thread nD τ).loc main_v1) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefValue.lean ====
/-
  The reference computes the layer's result.

  The reference transposes each incidence matrix and multiplies it with the node features (edge ε's gathered
  features Σ_n a(n, ε) · x(n, d)), joins the two products along the channel axis, multiplies with the transposed
  weights (Σ_k in(ε, k) · w(o, k)), adds the bias to every edge, clamps at zero, and multiplies tgt with the
  messages (Σ_ε tgt(n, ε) · msg(ε, o)). Read one operation at a time at an entry, this is the specification's `out`.
-/
import proofs.«112535_j58995670778248_1_alg».proof.Proof.Gen.ReferenceIdeal.Read
import proofs.«112535_j58995670778248_1_alg».proof.Proof.Spec
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx Cert.Layer

variable (x0 : (⟨S4096x128, .f32⟩ : BufTy).Contents (Elt Ideal)) (x1 x2 : (⟨S4096x32768, .f32⟩ : BufTy).Contents (Elt Ideal))
  (x3 : (⟨S128x256, .f32⟩ : BufTy).Contents (Elt Ideal)) (x4 : (⟨S128, .f32⟩ : BufTy).Contents (Elt Ideal))

/-- The first product at an entry: what edge `ε` gathers through src. -/
theorem gather_src (ε : Fin 32768) (d : Fin 128) : val_main_v1 (F := Ideal) x0 x1 (ix2 ε d) = feat x0 x1 ε d := by
  rw [val_main_v1_apply]
  unfold feat
  refine Finset.sum_congr rfl fun n _ => ?_
  rw [val_main_v0_apply]
  have e1 : idx_main_v0 (lidx_main_v1 (ix2 ε d) n) = ix2 n ε := funext (fun a => match a with | ⟨0, _⟩ => rfl | ⟨1, _⟩ => rfl)
  have e2 : ridx_main_v1 (ix2 ε d) n = ix2 n d := funext (fun a => match a with | ⟨0, _⟩ => rfl | ⟨1, _⟩ => rfl)
  rw [e1, e2]

/-- The second product at an entry: what edge `ε` gathers through tgt. -/
theorem gather_tgt (ε : Fin 32768) (d : Fin 128) : val_main_v3 (F := Ideal) x0 x2 (ix2 ε d) = feat x0 x2 ε d := by
  rw [val_main_v3_apply]
  unfold feat
  refine Finset.sum_congr rfl fun n _ => ?_
  rw [val_main_v2_apply]
  have e1 : idx_main_v2 (lidx_main_v3 (ix2 ε d) n) = ix2 n ε := funext (fun a => match a with | ⟨0, _⟩ => rfl | ⟨1, _⟩ => rfl)
  have e2 : ridx_main_v3 (ix2 ε d) n = ix2 n d := funext (fun a => match a with | ⟨0, _⟩ => rfl | ⟨1, _⟩ => rfl)
  rw [e1, e2]

/-- The join at an entry: edge `ε`'s 256 inputs. -/
theorem joined_apply (ε : Fin 32768) (k : Fin 256) : val_main_v4 (F := Ideal) x0 x1 x2 (ix2 ε k) = edgeIn x0 x1 x2 ε k := by
  unfold val_main_v4 edgeIn
  by_cases hk : k.val < 128
  · rw [dif_pos hk, ← gather_src]
    exact concatenate_pair_apply_left (t := S32768x256) (s₁ := S32768x128) (s₂ := S32768x128) 1 (val_main_v1 (F := Ideal) x0 x1) (val_main_v3 (F := Ideal) x0 x2)
      concatenates_S32768x128_S32768x128_S32768x256_d1 (ix2 ε k) rfl (ix2 ε (⟨k.val, hk⟩ : Fin 128)) (fun c => match c with
      | ⟨0, _⟩ => rfl
      | ⟨1, _⟩ => rfl)
  · rw [dif_neg hk, ← gather_tgt]
    exact concatenate_pair_apply_right (t := S32768x256) (s₁ := S32768x128) (s₂ := S32768x128) 1 (val_main_v1 (F := Ideal) x0 x1) (val_main_v3 (F := Ideal) x0 x2)
      concatenates_S32768x128_S32768x128_S32768x256_d1 (ix2 ε k) rfl rfl (ix2 ε (⟨k.val - 128, by have := k.isLt; omega⟩ : Fin 128)) (fun c hc => match c, hc with
      | ⟨0, _⟩, _ => rfl
      | ⟨1, _⟩, hc => absurd rfl hc) (by show k.val - 128 + 128 = k.val; omega)

/-- The clamped sum at an entry: edge `ε`'s message. -/
theorem message_apply (ε : Fin 32768) (o : Fin 128) :
    val_main_v10 (F := Ideal) x0 x1 x2 x3 x4 (ix2 ε o) = msg x0 x1 x2 x3 x4 ε o := by
  rw [val_main_v10_apply, val_main_v9_apply, val_main_v6_apply, val_main_v8_apply, val_main_v7_apply, val_main_call0_v0_apply,
    val_main_call0_cst_apply]
  unfold msg
  have e7 : idx_main_v7 (idx_main_v8 (ix2 ε o)) = ix1 o := funext (fun a => match a with | ⟨0, _⟩ => rfl)
  rw [e7]
  show max ((∑ k : Fin 256, _) + x4 (ix1 o)) zero = _
  congr 2
  refine Finset.sum_congr rfl fun k _ => ?_
  rw [val_main_v5_apply]
  have el : lidx_main_v6 (ix2 ε o) k = ix2 ε k := funext (fun a => match a with | ⟨0, _⟩ => rfl | ⟨1, _⟩ => rfl)
  have er : idx_main_v5 (ridx_main_v6 (ix2 ε o) k) = ix2 o k := funext (fun a => match a with | ⟨0, _⟩ => rfl | ⟨1, _⟩ => rfl)
  rw [el, er, joined_apply]

/-- The reference's result is the layer's. -/
theorem result_eq : val_main_v11 (F := Ideal) x0 x1 x2 x3 x4 = out x0 x1 x2 x3 x4 := by
  funext i
  obtain ⟨n, o, rfl⟩ : ∃ (n : Fin 4096) (o : Fin 128), i = ix2 n o := ⟨i 0, i 1, eq_ix2 i⟩
  rw [val_main_v11_apply]
  unfold out
  refine Finset.sum_congr rfl fun ε _ => ?_
  have el : lidx_main_v11 (ix2 n o) ε = ix2 n ε := funext (fun a => match a with | ⟨0, _⟩ => rfl | ⟨1, _⟩ => rfl)
  have er : ridx_main_v11 (ix2 n o) ε = ix2 ε o := funext (fun a => match a with | ⟨0, _⟩ => rfl | ⟨1, _⟩ => rfl)
  rw [el, er, message_apply]

end Cert.ReferenceIdeal.RefValue

end
-- ==== Proof.lean ====
/-
  The certificate of a fused message-passing layer against its reference.

  Both programs compute, from node features x, incidence matrices src and tgt, weights w and bias b,
      out(n, o) = Σ_ε tgt(n, ε) · max(Σ_k in(ε, k) · w(o, k) + b(o), 0),
  where in(ε, ·) joins the features edge ε gathers through src, Σ_n src(n, ε) · x(n, ·), and those it gathers
  through tgt. The reference does it with whole-array products. The kernel walks the 32768 edges in 128 tiles of
  256, computes each tile's messages from the tile's columns of src and tgt, and accumulates the tiles'
  contributions to out in a running sum that starts from zero; after the last tile it stores the sum as the result.
  On the extended reals the two agree because a sum over all edges is the sum over the tiles of the sums over each
  tile's edges — associativity and commutativity of addition only, so the finiteness of the inputs is not used —
  and every change of float format inside the kernel is the identity there.

  The kernel's run and the reference's run are the generated ones; the frames are theirs. The idealization
  rewrote nothing, so the preservation claim is trivial.
-/
import proofs.«112535_j58995670778248_1_alg».proof.Defs
import proofs.«112535_j58995670778248_1_alg».proof.Proof.Gen.Kernel
import proofs.«112535_j58995670778248_1_alg».proof.Proof.Gen.Kernel.Skeleton
import proofs.«112535_j58995670778248_1_alg».proof.Proof.Gen.Kernel.Launch
import proofs.«112535_j58995670778248_1_alg».proof.Proof.Gen.Kernel.Points
import proofs.«112535_j58995670778248_1_alg».proof.Proof.Gen.Kernel.Frame
import proofs.«112535_j58995670778248_1_alg».proof.Proof.Gen.KernelIdeal
import proofs.«112535_j58995670778248_1_alg».proof.Proof.Gen.KernelIdeal.Skeleton
import proofs.«112535_j58995670778248_1_alg».proof.Proof.Gen.KernelIdeal.Launch
import proofs.«112535_j58995670778248_1_alg».proof.Proof.Gen.KernelIdeal.Points
import proofs.«112535_j58995670778248_1_alg».proof.Proof.Gen.KernelIdeal.Frame
import proofs.«112535_j58995670778248_1_alg».proof.Proof.Gen.ReferenceIdeal
import proofs.«112535_j58995670778248_1_alg».proof.Proof.Gen.Pre_finite_inputs
import proofs.«112535_j58995670778248_1_alg».proof.Proof.Gen.KernelIdeal.Value
import proofs.«112535_j58995670778248_1_alg».proof.Proof.Gen.ReferenceIdeal.Run
import proofs.«112535_j58995670778248_1_alg».proof.Proof.Gen.ReferenceIdeal.Read
import proofs.«112535_j58995670778248_1_alg».proof.Proof.KernelValue
import proofs.«112535_j58995670778248_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at the layer's result of its arguments and the
    reference's at the layer's result of its own: one function of equal arguments. -/
theorem algebraic : Cert.algebraic_KernelIdeal_ReferenceIdeal := by
  intro m ρ m' ρ' _ hagree
  refine ⟨fun c => Cert.KernelIdeal.Result.layerOut m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
